-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S512x512 : Shape := ⟨2, ![512, 512]⟩
abbrev S512x256 : Shape := ⟨2, ![512, 256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S10000x512 .f32) (main_arg1 : IVec S2x160000 32) (main_arg2 : FVec F S512x512 .f32) (main_arg3 : FVec F S512x256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Kernel.lean ====
abbrev S10000x512 : Shape := ⟨2, ![10000, 512]⟩
abbrev S2x160000 : Shape := ⟨2, ![2, 160000]⟩
abbrev S512x512 : Shape := ⟨2, ![512, 512]⟩
abbrev S512x256 : Shape := ⟨2, ![512, 256]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S2000x512 : Shape := ⟨2, ![2000, 512]⟩
abbrev S170000x512 : Shape := ⟨2, ![170000, 512]⟩
abbrev S10000x256 : Shape := ⟨2, ![10000, 256]⟩
abbrev S2000x256 : Shape := ⟨2, ![2000, 256]⟩
abbrev S170000x256 : Shape := ⟨2, ![170000, 256]⟩

abbrev nBuf : Space → Nat
  | .hbm => 79
  | .vmem => 10
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512x256, .f32⟩
  | .hbm, ⟨4, _⟩ => ⟨S10000, .i32⟩
  | .hbm, ⟨5, _⟩ => ⟨S1x160000, .i32⟩
  | .hbm, ⟨6, _⟩ => ⟨S160000, .i32⟩
  | .hbm, ⟨7, _⟩ => ⟨S170000, .i32⟩
  | .hbm, ⟨8, _⟩ => ⟨S1x160000, .i32⟩
  | .hbm, ⟨9, _⟩ => ⟨S160000, .i32⟩
  | .hbm, ⟨10, _⟩ => ⟨S170000, .i32⟩
  | .hbm, ⟨11, _⟩ => ⟨S_, .f32⟩
  | .hbm, ⟨12, _⟩ => ⟨S170000, .f32⟩
  | .hbm, ⟨13, _⟩ => ⟨S_, .f32⟩
  | .hbm, ⟨14, _⟩ => ⟨S10000, .f32⟩
  | .hbm, ⟨15, _⟩ => ⟨S170000x1, .i32⟩
  | .hbm, ⟨16, _⟩ => ⟨S10000, .f32⟩
  | .hbm, ⟨17, _⟩ => ⟨S_, .f32⟩
  | .hbm, ⟨18, _⟩ => ⟨S10000, .f32⟩
  | .hbm, ⟨19, _⟩ => ⟨S10000, .i1⟩
  | .hbm, ⟨20, _⟩ => ⟨S10000, .f32⟩
  | .hbm, ⟨21, _⟩ => ⟨S_, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .i32⟩
  | .hbm, ⟨26, _⟩ => ⟨S170000, .i32⟩
  | .hbm, ⟨27, _⟩ => ⟨S170000, .i1⟩
  | .hbm, ⟨28, _⟩ => ⟨S_, .i32⟩
  | .hbm, ⟨29, _⟩ => ⟨S170000, .i32⟩
  | .hbm, ⟨30, _⟩ => ⟨S170000, .i32⟩
  | .hbm, ⟨31, _⟩ => ⟨S170000, .i32⟩
  | .hbm, ⟨32, _⟩ => ⟨S170000x1, .i32⟩
  | .hbm, ⟨33, _⟩ => ⟨S170000, .f32⟩
  | .hbm, ⟨34, _⟩ => ⟨S_, .i32⟩
  | .hbm, ⟨35, _⟩ => ⟨S170000, .i32⟩
  | .hbm, ⟨36, _⟩ => ⟨S170000, .i1⟩
  | .hbm, ⟨37, _⟩ => ⟨S_, .i32⟩
  | .hbm, ⟨38, _⟩ => ⟨S170000, .i32⟩
  | .hbm, ⟨39, _⟩ => ⟨S170000, .i32⟩
  | .hbm, ⟨40, _⟩ => ⟨S170000, .i32⟩
  | .hbm, ⟨41, _⟩ => ⟨S170000x1, .i32⟩
  | .hbm, ⟨42, _⟩ => ⟨S170000, .f32⟩
  | .hbm, ⟨43, _⟩ => ⟨S170000, .f32⟩
  | .hbm, ⟨44, _⟩ => ⟨S10000x512, .f32⟩
  | .hbm, ⟨45, _⟩ => ⟨S170000x1, .f32⟩
  | .hbm, ⟨46, _⟩ => ⟨S_, .i32⟩
  | .hbm, ⟨47, _⟩ => ⟨S170000, .i32⟩
  | .hbm, ⟨48, _⟩ => ⟨S170000, .i1⟩
  | .hbm, ⟨49, _⟩ => ⟨S_, .i32⟩
  | .hbm, ⟨50, _⟩ => ⟨S170000, .i32⟩
  | .hbm, ⟨51, _⟩ => ⟨S170000, .i32⟩
  | .hbm, ⟨52, _⟩ => ⟨S170000, .i32⟩
  | .hbm, ⟨53, _⟩ => ⟨S170000x1, .i32⟩
  | .hbm, ⟨54, _⟩ => ⟨S170000x512, .f32⟩
  | .hbm, ⟨55, _⟩ => ⟨S170000x512, .f32⟩
  | .hbm, ⟨56, _⟩ => ⟨S170000x512, .f32⟩
  | .hbm, ⟨57, _⟩ => ⟨S_, .f32⟩
  | .hbm, ⟨58, _⟩ => ⟨S10000x512, .f32⟩
  | .hbm, ⟨59, _⟩ => ⟨S170000x1, .i32⟩
  | .hbm, ⟨60, _⟩ => ⟨S10000x512, .f32⟩
  | .hbm, ⟨61, _⟩ => ⟨S10000x512, .f32⟩
  | .hbm, ⟨62, _⟩ => ⟨S10000x256, .f32⟩
  | .hbm, ⟨63, _⟩ => ⟨S170000x1, .f32⟩
  | .hbm, ⟨64, _⟩ => ⟨S_, .i32⟩
  | .hbm, ⟨65, _⟩ => ⟨S170000, .i32⟩
  | .hbm, ⟨66, _⟩ => ⟨S170000, .i1⟩
  | .hbm, ⟨67, _⟩ => ⟨S_, .i32⟩
  | .hbm, ⟨68, _⟩ => ⟨S170000, .i32⟩
  | .hbm, ⟨69, _⟩ => ⟨S170000, .i32⟩
  | .hbm, ⟨70, _⟩ => ⟨S170000, .i32⟩
  | .hbm, ⟨71, _⟩ => ⟨S170000x1, .i32⟩
  | .hbm, ⟨72, _⟩ => ⟨S170000x256, .f32⟩
  | .hbm, ⟨73, _⟩ => ⟨S170000x256, .f32⟩
  | .hbm, ⟨74, _⟩ => ⟨S170000x256, .f32⟩
  | .hbm, ⟨75, _⟩ => ⟨S_, .f32⟩
  | .hbm, ⟨76, _⟩ => ⟨S10000x256, .f32⟩
  | .hbm, ⟨77, _⟩ => ⟨S170000x1, .i32⟩
  | .hbm, ⟨78, _⟩ => ⟨S10000x256, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x256, .f32⟩
  | .local _ .vmem, ⟨8, _⟩ => ⟨S2000x256, .f32⟩
  | .local _ .vmem, ⟨9, _⟩ => ⟨S2000x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S2000x512_S512x512_S2000x512_1_0_0_1_n_n_wf : DotDims.WF S2000x512 S512x512 S2000x512 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S2000x512_S512x256_S2000x256_1_0_0_1_n_n_wf : DotDims.WF S2000x512 S512x256 S2000x256 [1] [0] [0] [1] [] []
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .f32 = 32 ∨ (Rect.block (s := S10000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .f32 = 32 ∨ (Rect.block (s := S10000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S10000x256.size a
  hwx1_2 : ∀ i : grid1.Coords, EltTy.bits .f32 = 32 ∨ (Rect.block (s := S10000x256) S2000x256.size (cc1_transform_2 i) (hinb1_2 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S512x512 : Shape := ⟨2, ![512, 512]⟩
abbrev S512x256 : Shape := ⟨2, ![512, 256]⟩
abbrev S10000 : Shape := ⟨1, ![10000]⟩
abbrev S1x160000 : Shape := ⟨2, ![1, 160000]⟩
abbrev S160000 : Shape := ⟨1, ![160000]⟩
abbrev S170000 : Shape := ⟨1, ![170000]⟩
abbrev S_ : Shape := ⟨0, ![]⟩
abbrev S170000x1 : Shape := ⟨2, ![170000, 1]⟩
abbrev S170000x512 : Shape := ⟨2, ![170000, 512]⟩
abbrev S10000x256 : Shape := ⟨2, ![10000, 256]⟩
abbrev S170000x256 : Shape := ⟨2, ![170000, 256]⟩

abbrev nBuf : Space → Nat
  | .hbm => 112
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S512x512, .f32⟩
  | .hbm, ⟨3, _⟩ => ⟨S512x256, .f32⟩
  | .hbm, ⟨4, _⟩ => ⟨S10000, .i32⟩
  | .hbm, ⟨5, _⟩ => ⟨S1x160000, .i32⟩
  | .hbm, ⟨6, _⟩ => ⟨S160000, .i32⟩
  | .hbm, ⟨7, _⟩ => ⟨S170000, .i32⟩
  | .hbm, ⟨8, _⟩ => ⟨S1x160000, .i32⟩
  | .hbm, ⟨9, _⟩ => ⟨S160000, .i32⟩
  | .hbm, ⟨10, _⟩ => ⟨S170000, .i32⟩
  | .hbm, ⟨11, _⟩ => ⟨S10000x512, .f32⟩
  | .hbm, ⟨12, _⟩ => ⟨S_, .f32⟩
  | .hbm, ⟨13, _⟩ => ⟨S170000, .f32⟩
  | .hbm, ⟨14, _⟩ => ⟨S_, .f32⟩
  | .hbm, ⟨15, _⟩ => ⟨S10000, .f32⟩
  | .hbm, ⟨16, _⟩ => ⟨S170000x1, .i32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .i1⟩
  | .hbm, ⟨21, _⟩ => ⟨S10000, .f32⟩
  | .hbm, ⟨22, _⟩ => ⟨S_, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S_, .i32⟩
  | .hbm, ⟨27, _⟩ => ⟨S170000, .i32⟩
  | .hbm, ⟨28, _⟩ => ⟨S170000, .i1⟩
  | .hbm, ⟨29, _⟩ => ⟨S_, .i32⟩
  | .hbm, ⟨30, _⟩ => ⟨S170000, .i32⟩
  | .hbm, ⟨31, _⟩ => ⟨S170000, .i32⟩
  | .hbm, ⟨32, _⟩ => ⟨S170000, .i32⟩
  | .hbm, ⟨33, _⟩ => ⟨S170000x1, .i32⟩
  | .hbm, ⟨34, _⟩ => ⟨S170000, .f32⟩
  | .hbm, ⟨35, _⟩ => ⟨S_, .i32⟩
  | .hbm, ⟨36, _⟩ => ⟨S170000, .i32⟩
  | .hbm, ⟨37, _⟩ => ⟨S170000, .i1⟩
  | .hbm, ⟨38, _⟩ => ⟨S_, .i32⟩
  | .hbm, ⟨39, _⟩ => ⟨S170000, .i32⟩
  | .hbm, ⟨40, _⟩ => ⟨S170000, .i32⟩
  | .hbm, ⟨41, _⟩ => ⟨S170000, .i32⟩
  | .hbm, ⟨42, _⟩ => ⟨S170000x1, .i32⟩
  | .hbm, ⟨43, _⟩ => ⟨S170000, .f32⟩
  | .hbm, ⟨44, _⟩ => ⟨S170000, .f32⟩
  | .hbm, ⟨45, _⟩ => ⟨S170000x1, .f32⟩
  | .hbm, ⟨46, _⟩ => ⟨S_, .i32⟩
  | .hbm, ⟨47, _⟩ => ⟨S170000, .i32⟩
  | .hbm, ⟨48, _⟩ => ⟨S170000, .i1⟩
  | .hbm, ⟨49, _⟩ => ⟨S_, .i32⟩
  | .hbm, ⟨50, _⟩ => ⟨S170000, .i32⟩
  | .hbm, ⟨51, _⟩ => ⟨S170000, .i32⟩
  | .hbm, ⟨52, _⟩ => ⟨S170000, .i32⟩
  | .hbm, ⟨53, _⟩ => ⟨S170000x1, .i32⟩
  | .hbm, ⟨54, _⟩ => ⟨S170000x512, .f32⟩
  | .hbm, ⟨55, _⟩ => ⟨S170000x512, .f32⟩
  | .hbm, ⟨56, _⟩ => ⟨S170000x512, .f32⟩
  | .hbm, ⟨57, _⟩ => ⟨S_, .f32⟩
  | .hbm, ⟨58, _⟩ => ⟨S10000x512, .f32⟩
  | .hbm, ⟨59, _⟩ => ⟨S170000x1, .i32⟩
  | .hbm, ⟨60, _⟩ => ⟨S10000x512, .f32⟩
  | .hbm, ⟨61, _⟩ => ⟨S10000x512, .f32⟩
  | .hbm, ⟨62, _⟩ => ⟨S10000x256, .f32⟩
  | .hbm, ⟨63, _⟩ => ⟨S_, .f32⟩
  | .hbm, ⟨64, _⟩ => ⟨S170000, .f32⟩
  | .hbm, ⟨65, _⟩ => ⟨S_, .f32⟩
  | .hbm, ⟨66, _⟩ => ⟨S10000, .f32⟩
  | .hbm, ⟨67, _⟩ => ⟨S170000x1, .i32⟩
  | .hbm, ⟨68, _⟩ => ⟨S10000, .f32⟩
  | .hbm, ⟨69, _⟩ => ⟨S_, .f32⟩
  | .hbm, ⟨70, _⟩ => ⟨S10000, .f32⟩
  | .hbm, ⟨71, _⟩ => ⟨S10000, .i1⟩
  | .hbm, ⟨72, _⟩ => ⟨S10000, .f32⟩
  | .hbm, ⟨73, _⟩ => ⟨S_, .f32⟩
  | .hbm, ⟨74, _⟩ => ⟨S_, .f32⟩
  | .hbm, ⟨75, _⟩ => ⟨S10000, .f32⟩
  | .hbm, ⟨76, _⟩ => ⟨S10000, .f32⟩
  | .hbm, ⟨77, _⟩ => ⟨S_, .i32⟩
  | .hbm, ⟨78, _⟩ => ⟨S170000, .i32⟩
  | .hbm, ⟨79, _⟩ => ⟨S170000, .i1⟩
  | .hbm, ⟨80, _⟩ => ⟨S_, .i32⟩
  | .hbm, ⟨81, _⟩ => ⟨S170000, .i32⟩
  | .hbm, ⟨82, _⟩ => ⟨S170000, .i32⟩
  | .hbm, ⟨83, _⟩ => ⟨S170000, .i32⟩
  | .hbm, ⟨84, _⟩ => ⟨S170000x1, .i32⟩
  | .hbm, ⟨85, _⟩ => ⟨S170000, .f32⟩
  | .hbm, ⟨86, _⟩ => ⟨S_, .i32⟩
  | .hbm, ⟨87, _⟩ => ⟨S170000, .i32⟩
  | .hbm, ⟨88, _⟩ => ⟨S170000, .i1⟩
  | .hbm, ⟨89, _⟩ => ⟨S_, .i32⟩
  | .hbm, ⟨90, _⟩ => ⟨S170000, .i32⟩
  | .hbm, ⟨91, _⟩ => ⟨S170000, .i32⟩
  | .hbm, ⟨92, _⟩ => ⟨S170000, .i32⟩
  | .hbm, ⟨93, _⟩ => ⟨S170000x1, .i32⟩
  | .hbm, ⟨94, _⟩ => ⟨S170000, .f32⟩
  | .hbm, ⟨95, _⟩ => ⟨S170000, .f32⟩
  | .hbm, ⟨96, _⟩ => ⟨S170000x1, .f32⟩
  | .hbm, ⟨97, _⟩ => ⟨S_, .i32⟩
  | .hbm, ⟨98, _⟩ => ⟨S170000, .i32⟩
  | .hbm, ⟨99, _⟩ => ⟨S170000, .i1⟩
  | .hbm, ⟨100, _⟩ => ⟨S_, .i32⟩
  | .hbm, ⟨101, _⟩ => ⟨S170000, .i32⟩
  | .hbm, ⟨102, _⟩ => ⟨S170000, .i32⟩
  | .hbm, ⟨103, _⟩ => ⟨S170000, .i32⟩
  | .hbm, ⟨104, _⟩ => ⟨S170000x1, .i32⟩
  | .hbm, ⟨105, _⟩ => ⟨S170000x256, .f32⟩
  | .hbm, ⟨106, _⟩ => ⟨S170000x256, .f32⟩
  | .hbm, ⟨107, _⟩ => ⟨S170000x256, .f32⟩
  | .hbm, ⟨108, _⟩ => ⟨S_, .f32⟩
  | .hbm, ⟨109, _⟩ => ⟨S10000x256, .f32⟩
  | .hbm, ⟨110, _⟩ => ⟨S170000x1, .i32⟩
  | .hbm, ⟨111, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_call1_v0 : Ref sig .tc := ⟨.hbm, 74, rfl⟩
abbrev main_call1_v1 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_c_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_15 : Ref sig .tc := ⟨.hbm, 86, rfl⟩
abbrev main_v61 : Ref sig .tc := ⟨.hbm, 87, rfl⟩
abbrev main_v62 : Ref sig .tc := ⟨.hbm, 88, rfl⟩
abbrev main_c_16 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_17 : Ref sig .tc := ⟨.hbm, 97, rfl⟩
abbrev main_v70 : Ref sig .tc := ⟨.hbm, 98, rfl⟩
abbrev main_v71 : Ref sig .tc := ⟨.hbm, 99, rfl⟩
abbrev main_c_18 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S170000 : S_.BroadcastsInDim S170000 (![] : Fin 0 → Fin S170000.rank)
  bcast_S_S10000 : S_.BroadcastsInDim S10000 (![] : Fin 0 → Fin S10000.rank)
  bcast_S170000_S170000x1_0 : S170000.BroadcastsInDim S170000x1 (![0] : Fin 1 → Fin S170000x1.rank)
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  dot_S10000x512_S512x512_S10000x512_1_0_0_1_n_n_wf : DotDims.WF S10000x512 S512x512 S10000x512 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  dot_S10000x512_S512x256_S10000x256_1_0_0_1_n_n_wf : DotDims.WF S10000x512 S512x256 S10000x256 [1] [0] [0] [1] [] []
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf

class Facts : Prop extends Facts₀ where

variable [Facts]
-- ==== Proof.RegionProduct.lean ====
/- The two kernel regions' result arrays, at the exact extended-real values. Each region multiplies a [10000, 512] array by a
   [512, n] array five row blocks of 2000 at a time: at grid point t the body loads rows 2000 t … 2000 t + 1999 of the
   left array and the whole right array, and stores their matrix product (into a zero accumulator; the narrowing of the
   operands' float format is the identity on exact values) into rows 2000 t … of the result. Entry (2000 t + p, q) of
   the result is therefore the sum over k of left (2000 t + p, k) · right (k, q), which is entry (2000 t + p, q) of the
   product of the two whole arrays as a host contraction states it; the five blocks tile the result, so the result
   array after the region IS that product. The regions are stated at any contents `V` of the buffers at their entry. -/
import proofs.«113894_j63187558859328_1_alg».proof.Proof.Gen.KernelIdeal.Frame
import proofs.«113894_j63187558859328_1_alg».proof.Proof.RefRead
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.RegionProduct

open Cert.KernelIdeal Cert.KernelIdeal.Gen

theorem zero_offsets : (![0, 0] : Fin 2 → Nat) = fun _ => 0 := funext fun a => by fin_cases a <;> rfl

variable (V : (c : Dev nD) → (b : Ref sig .tc) → Buf (Elt Ideal) ((c : Thread nD τ).loc b))

/-! ## Region 0: the kernel's rows `2000 t … 2000 t + 1999` of the product, point by point -/

/-- Row of the left block, column of the right block: the two factors of the `k`-th term of entry `i` of a block product. -/
abbrev lrow0 (i : S2000x512.Idx) (k : Fin 512) : S2000x512.Idx := fun a => match a with
  | ⟨0, _⟩ => ⟨(i 0).val, (i 0).isLt⟩
  | ⟨1, _⟩ => ⟨k.val, k.isLt⟩
abbrev rcol0 (i : S2000x512.Idx) (k : Fin 512) : S512x512.Idx := fun a => match a with
  | ⟨0, _⟩ => ⟨k.val, k.isLt⟩
  | ⟨1, _⟩ => ⟨(i 1).val, (i 1).isLt⟩

theorem klhs0_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem klhs0_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem krhs0_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem krhs0_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- What the body stores, at an entry: the change of float format is the identity on extended reals and the
    accumulator is zero, so entry `i` is the sum over `k` of row `i 0` of the left block times column `i 1` of the right. -/
theorem stored0_apply (x0 : Vec Ideal S2000x512 .f32) (x1 : Vec Ideal S512x512 .f32) (i : S2000x512.Idx) :
    k0_pay1 (F := Ideal) x0 x1 i = ∑ k : Fin 512, x0 (lrow0 i k) * x1 (rcol0 i k) := by
  unfold k0_pay1
  simp only [matmul]
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx i ((ValueIdx.contrEquiv1 dot_S2000x512_S512x512_S2000x512_1_0_0_1_n_n 512 rfl rfl).symm k) = lrow0 i k := funext fun a => Fin.ext (by
    match a with
    | ⟨0, _⟩ => exact klhs0_0 _ _
    | ⟨1, _⟩ => exact (klhs0_1 _ _).trans hk)
  have er : dot_S2000x512_S512x512_S2000x512_1_0_0_1_n_n.rhsIdx i ((ValueIdx.contrEquiv1 dot_S2000x512_S512x512_S2000x512_1_0_0_1_n_n 512 rfl rfl).symm k) = rcol0 i k := funext fun a => Fin.ext (by
    match a with
    | ⟨0, _⟩ => exact (krhs0_0 _ _).trans hk
    | ⟨1, _⟩ => exact krhs0_1 _ _)
  rw [el, er]
  rfl

/-- The host's product of two whole arrays, at an entry: the same sum over the whole arrays' row and column. -/
theorem whole0_apply (Y : (⟨Cert.ReferenceIdeal.S10000x512, .f32⟩ : BufTy).Contents (Elt Ideal)) (W : (⟨Cert.ReferenceIdeal.S512x512, .f32⟩ : BufTy).Contents (Elt Ideal)) (i : Cert.ReferenceIdeal.S10000x512.Idx) :
    Host.dotGeneral (F := Ideal) (φ₁ := .f32) (φ₂ := .f32) Cert.ReferenceIdeal.dot_S10000x512_S512x512_S10000x512_1_0_0_1_n_n none Y W i = ∑ k : Fin 512, Y (Cert.ReferenceIdeal.ReadP.lidx_main_v7 i k) * W (Cert.ReferenceIdeal.ReadP.ridx_main_v7 i k) := by
  simp only [Host.dotGeneral]
  rw [Ideal.dotGeneral_apply, ← Equiv.sum_comp (ValueIdx.contrEquiv1 Cert.ReferenceIdeal.dot_S10000x512_S512x512_S10000x512_1_0_0_1_n_n 512 rfl rfl).symm]
  refine Finset.sum_congr rfl fun k _ => ?_
  have hk := ValueIdx.contrEquiv1_symm_val Cert.ReferenceIdeal.dot_S10000x512_S512x512_S10000x512_1_0_0_1_n_n 512 rfl rfl k
  have el : Cert.ReferenceIdeal.dot_S10000x512_S512x512_S10000x512_1_0_0_1_n_n.lhsIdx i ((ValueIdx.contrEquiv1 Cert.ReferenceIdeal.dot_S10000x512_S512x512_S10000x512_1_0_0_1_n_n 512 rfl rfl).symm k) = Cert.ReferenceIdeal.ReadP.lidx_main_v7 i k := funext fun a => Fin.ext (by
    match a with
    | ⟨0, _⟩ => exact Cert.ReferenceIdeal.ReadP.lhs_main_v7_0 _ _
    | ⟨1, _⟩ => exact (Cert.ReferenceIdeal.ReadP.lhs_main_v7_1 _ _).trans hk)
  have er : Cert.ReferenceIdeal.dot_S10000x512_S512x512_S10000x512_1_0_0_1_n_n.rhsIdx i ((ValueIdx.contrEquiv1 Cert.ReferenceIdeal.dot_S10000x512_S512x512_S10000x512_1_0_0_1_n_n 512 rfl rfl).symm k) = Cert.ReferenceIdeal.ReadP.ridx_main_v7 i k := funext fun a => Fin.ext (by
    match a with
    | ⟨0, _⟩ => exact (Cert.ReferenceIdeal.ReadP.rhs_main_v7_0 _ _).trans hk
    | ⟨1, _⟩ => exact Cert.ReferenceIdeal.ReadP.rhs_main_v7_1 _ _)
  rw [el, er]

/-- Which block each window holds at point `t`: the left operand's and the result's block `t` of five along the rows,
    the right operand whole. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `2000 t …` of its array. -/
theorem left0_apply (c : Dev nD) (t : Fin cfg0.N) (x : S2000x512.Idx) (i : S10000x512.Idx)
    (h0 : (i 0).val = 2000 * t.val + (x 0).val) (h1 : (i 1).val = (x 1).val) :
    (iblk0 V c 0 t : Vec Ideal S2000x512 .f32) x = (V c main_arg0 : S10000x512.Idx → Elt Ideal .f32) i := by
  obtain ⟨e0, e1, -, -, -, -⟩ := blocks0 t
  unfold iblk0
  rw [View.read_apply]
  show V c main_arg0 _ = V c main_arg0 i
  refine congrArg _ (funext fun a => Fin.ext ?_)
  match a with
  | ⟨0, _⟩ => show win0_0.index t (0 : Fin 2) * 2000 + 1 * (x 0).val = (i 0).val; rw [e0, h0]; omega
  | ⟨1, _⟩ => show win0_0.index t (1 : Fin 2) * 512 + 1 * (x 1).val = (i 1).val; rw [e1, h1]; omega

/-- The right operand's block at every point is its whole array. -/
theorem right0_apply (c : Dev nD) (t : Fin cfg0.N) (x : S512x512.Idx) (i : S512x512.Idx)
    (h0 : (i 0).val = (x 0).val) (h1 : (i 1).val = (x 1).val) :
    (iblk0 V c 1 t : Vec Ideal S512x512 .f32) x = (V c main_arg2 : S512x512.Idx → Elt Ideal .f32) i := by
  obtain ⟨-, -, e0, e1, -, -⟩ := blocks0 t
  unfold iblk0
  rw [View.read_apply]
  show V c main_arg2 _ = V c main_arg2 i
  refine congrArg _ (funext fun a => Fin.ext ?_)
  match a with
  | ⟨0, _⟩ => show win0_1.index t (0 : Fin 2) * 512 + 1 * (x 0).val = (i 0).val; rw [e0, h0]; omega
  | ⟨1, _⟩ => show win0_1.index t (1 : Fin 2) * 512 + 1 * (x 1).val = (i 1).val; rw [e1, h1]; omega

/-- The product of the region's two operand arrays as it finds them, whole. -/
abbrev product0 (c : Dev nD) : Buf (Elt Ideal) ((c : Thread nD τ).loc main_v30) :=
  Host.dotGeneral (F := Ideal) (φ₁ := .f32) (φ₂ := .f32) Cert.ReferenceIdeal.dot_S10000x512_S512x512_S10000x512_1_0_0_1_n_n none (V c main_arg0) (V c main_arg2)

/-- What point `t` writes back is block `t` of that product: entry (p, q) of the block is entry (2000 t + p, q) of the
    product, both the sum over `k` of the left array at (2000 t + p, k) times the right array at (k, q). -/
theorem written0 (c : Dev nD) (t : Fin cfg0.N) :
    (dat0 V c).flushed 2 t = ((cfg0.win 2).blk t).view.read (Elt Ideal) (product0 V c) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x512) zero_offsets]
  obtain ⟨-, -, -, -, e0, e1⟩ := blocks0 t
  funext j
  show k0_pay1 (F := Ideal) (iblk0 V c 0 t) (iblk0 V c 1 t) j
    = Host.dotGeneral (F := Ideal) (φ₁ := .f32) (φ₂ := .f32) Cert.ReferenceIdeal.dot_S10000x512_S512x512_S10000x512_1_0_0_1_n_n none (V c main_arg0) (V c main_arg2) (((cfg0.win 2).blk t).view.emb j)
  rw [stored0_apply, whole0_apply]
  have hj0 : ((((cfg0.win 2).blk t).view.emb j) (0 : Fin 2)).val = win0_2.index t (0 : Fin 2) * 2000 + 1 * (j 0).val := rfl
  have hj1 : ((((cfg0.win 2).blk t).view.emb j) (1 : Fin 2)).val = win0_2.index t (1 : Fin 2) * 512 + 1 * (j 1).val := rfl
  refine Finset.sum_congr rfl fun k _ => ?_
  congr 1
  · refine left0_apply V c t _ _ ?_ rfl
    show ((((cfg0.win 2).blk t).view.emb j) (0 : Fin 2)).val = 2000 * t.val + (j 0).val
    rw [hj0, e0]; omega
  · refine right0_apply V c t _ _ rfl ?_
    show ((((cfg0.win 2).blk t).view.emb j) (1 : Fin 2)).val = (j 1).val
    rw [hj1, e1]; omega

/-- An entry of the result array is in point `t`'s block iff each coordinate is in the block's range on its axis. -/
theorem mem_block0 (t : Fin cfg0.N) (i : S10000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v30).slice (win0_2.rect t)).set ↔ _
  rw [View.set_slice_whole, Rect.mem_set_unit]
  exact Iff.rfl

/-- The five row blocks tile the result array: row `ρ` is in block `ρ / 2000`. -/
theorem tiled0 (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 5 := N_0
  let t : Fin cfg0.N := ⟨(i 0).val / 2000, by rw [hN]; omega⟩
  obtain ⟨-, -, -, -, e0, e1⟩ := blocks0 t
  have ht : t.val = (i 0).val / 2000 := rfl
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 512 ≤ (i 1).val ∧ (i 1).val < win0_2.index t (1 : Fin 2) * 512 + 512; rw [e1]; omega

/-- So the region leaves in its result array the product of its two operand arrays. -/
theorem array0 (c : Dev nD) : (dat0 V c).arrAt 2 cfg0.N = product0 V c :=
  (dat0 V c).arrAt_eq_of_cover 2 (product0 V c) (fun t _ => written0 V c t) (tiled0)

/-! ## Region 1: the kernel's rows `2000 t … 2000 t + 1999` of the product, point by point -/

/-- Row of the left block, column of the right block: the two factors of the `k`-th term of entry `i` of a block product. -/
abbrev lrow1 (i : S2000x256.Idx) (k : Fin 512) : S2000x512.Idx := fun a => match a with
  | ⟨0, _⟩ => ⟨(i 0).val, (i 0).isLt⟩
  | ⟨1, _⟩ => ⟨k.val, k.isLt⟩
abbrev rcol1 (i : S2000x256.Idx) (k : Fin 512) : S512x256.Idx := fun a => match a with
  | ⟨0, _⟩ => ⟨k.val, k.isLt⟩
  | ⟨1, _⟩ => ⟨(i 1).val, (i 1).isLt⟩

theorem klhs1_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem klhs1_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem krhs1_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem krhs1_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- What the body stores, at an entry: the change of float format is the identity on extended reals and the
    accumulator is zero, so entry `i` is the sum over `k` of row `i 0` of the left block times column `i 1` of the right. -/
theorem stored1_apply (x0 : Vec Ideal S2000x512 .f32) (x1 : Vec Ideal S512x256 .f32) (i : S2000x256.Idx) :
    k1_pay1 (F := Ideal) x0 x1 i = ∑ k : Fin 512, x0 (lrow1 i k) * x1 (rcol1 i k) := by
  unfold k1_pay1
  simp only [matmul, shapeCast_self]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx i ((ValueIdx.contrEquiv1 dot_S2000x512_S512x256_S2000x256_1_0_0_1_n_n 512 rfl rfl).symm k) = lrow1 i k := funext fun a => Fin.ext (by
    match a with
    | ⟨0, _⟩ => exact klhs1_0 _ _
    | ⟨1, _⟩ => exact (klhs1_1 _ _).trans hk)
  have er : dot_S2000x512_S512x256_S2000x256_1_0_0_1_n_n.rhsIdx i ((ValueIdx.contrEquiv1 dot_S2000x512_S512x256_S2000x256_1_0_0_1_n_n 512 rfl rfl).symm k) = rcol1 i k := funext fun a => Fin.ext (by
    match a with
    | ⟨0, _⟩ => exact (krhs1_0 _ _).trans hk
    | ⟨1, _⟩ => exact krhs1_1 _ _)
  rw [el, er]
  rfl

/-- The host's product of two whole arrays, at an entry: the same sum over the whole arrays' row and column. -/
theorem whole1_apply (Y : (⟨Cert.ReferenceIdeal.S10000x512, .f32⟩ : BufTy).Contents (Elt Ideal)) (W : (⟨Cert.ReferenceIdeal.S512x256, .f32⟩ : BufTy).Contents (Elt Ideal)) (i : Cert.ReferenceIdeal.S10000x256.Idx) :
    Host.dotGeneral (F := Ideal) (φ₁ := .f32) (φ₂ := .f32) Cert.ReferenceIdeal.dot_S10000x512_S512x256_S10000x256_1_0_0_1_n_n none Y W i = ∑ k : Fin 512, Y (Cert.ReferenceIdeal.ReadP.lidx_main_v45 i k) * W (Cert.ReferenceIdeal.ReadP.ridx_main_v45 i k) := by
  simp only [Host.dotGeneral]
  rw [Ideal.dotGeneral_apply, ← Equiv.sum_comp (ValueIdx.contrEquiv1 Cert.ReferenceIdeal.dot_S10000x512_S512x256_S10000x256_1_0_0_1_n_n 512 rfl rfl).symm]
  refine Finset.sum_congr rfl fun k _ => ?_
  have hk := ValueIdx.contrEquiv1_symm_val Cert.ReferenceIdeal.dot_S10000x512_S512x256_S10000x256_1_0_0_1_n_n 512 rfl rfl k
  have el : Cert.ReferenceIdeal.dot_S10000x512_S512x256_S10000x256_1_0_0_1_n_n.lhsIdx i ((ValueIdx.contrEquiv1 Cert.ReferenceIdeal.dot_S10000x512_S512x256_S10000x256_1_0_0_1_n_n 512 rfl rfl).symm k) = Cert.ReferenceIdeal.ReadP.lidx_main_v45 i k := funext fun a => Fin.ext (by
    match a with
    | ⟨0, _⟩ => exact Cert.ReferenceIdeal.ReadP.lhs_main_v45_0 _ _
    | ⟨1, _⟩ => exact (Cert.ReferenceIdeal.ReadP.lhs_main_v45_1 _ _).trans hk)
  have er : Cert.ReferenceIdeal.dot_S10000x512_S512x256_S10000x256_1_0_0_1_n_n.rhsIdx i ((ValueIdx.contrEquiv1 Cert.ReferenceIdeal.dot_S10000x512_S512x256_S10000x256_1_0_0_1_n_n 512 rfl rfl).symm k) = Cert.ReferenceIdeal.ReadP.ridx_main_v45 i k := funext fun a => Fin.ext (by
    match a with
    | ⟨0, _⟩ => exact (Cert.ReferenceIdeal.ReadP.rhs_main_v45_0 _ _).trans hk
    | ⟨1, _⟩ => exact Cert.ReferenceIdeal.ReadP.rhs_main_v45_1 _ _)
  rw [el, er]

/-- Which block each window holds at point `t`: the left operand's and the result's block `t` of five along the rows,
    the right operand whole. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t` is rows `2000 t …` of its array. -/
theorem left1_apply (c : Dev nD) (t : Fin cfg1.N) (x : S2000x512.Idx) (i : S10000x512.Idx)
    (h0 : (i 0).val = 2000 * t.val + (x 0).val) (h1 : (i 1).val = (x 1).val) :
    (iblk1 V c 0 t : Vec Ideal S2000x512 .f32) x = (V c main_v44 : S10000x512.Idx → Elt Ideal .f32) i := by
  obtain ⟨e0, e1, -, -, -, -⟩ := blocks1 t
  unfold iblk1
  rw [View.read_apply]
  show V c main_v44 _ = V c main_v44 i
  refine congrArg _ (funext fun a => Fin.ext ?_)
  match a with
  | ⟨0, _⟩ => show win1_0.index t (0 : Fin 2) * 2000 + 1 * (x 0).val = (i 0).val; rw [e0, h0]; omega
  | ⟨1, _⟩ => show win1_0.index t (1 : Fin 2) * 512 + 1 * (x 1).val = (i 1).val; rw [e1, h1]; omega

/-- The right operand's block at every point is its whole array. -/
theorem right1_apply (c : Dev nD) (t : Fin cfg1.N) (x : S512x256.Idx) (i : S512x256.Idx)
    (h0 : (i 0).val = (x 0).val) (h1 : (i 1).val = (x 1).val) :
    (iblk1 V c 1 t : Vec Ideal S512x256 .f32) x = (V c main_arg3 : S512x256.Idx → Elt Ideal .f32) i := by
  obtain ⟨-, -, e0, e1, -, -⟩ := blocks1 t
  unfold iblk1
  rw [View.read_apply]
  show V c main_arg3 _ = V c main_arg3 i
  refine congrArg _ (funext fun a => Fin.ext ?_)
  match a with
  | ⟨0, _⟩ => show win1_1.index t (0 : Fin 2) * 512 + 1 * (x 0).val = (i 0).val; rw [e0, h0]; omega
  | ⟨1, _⟩ => show win1_1.index t (1 : Fin 2) * 256 + 1 * (x 1).val = (i 1).val; rw [e1, h1]; omega

/-- The product of the region's two operand arrays as it finds them, whole. -/
abbrev product1 (c : Dev nD) : Buf (Elt Ideal) ((c : Thread nD τ).loc main_v45) :=
  Host.dotGeneral (F := Ideal) (φ₁ := .f32) (φ₂ := .f32) Cert.ReferenceIdeal.dot_S10000x512_S512x256_S10000x256_1_0_0_1_n_n none (V c main_v44) (V c main_arg3)

/-- What point `t` writes back is block `t` of that product: entry (p, q) of the block is entry (2000 t + p, q) of the
    product, both the sum over `k` of the left array at (2000 t + p, k) times the right array at (k, q). -/
theorem written1 (c : Dev nD) (t : Fin cfg1.N) :
    (dat1 V c).flushed 2 t = ((cfg1.win 2).blk t).view.read (Elt Ideal) (product1 V c) := by
  show (cfg1.win 2).cut (grid1.coords t) ((dat1 V c).after 2 t) = _
  rw [after1_2]
  unfold out1_2
  rw [View.canon_unit_zero zero_offsets]
  simp only [View.ld_unit_zero (S := S2000x512) zero_offsets, View.ld_unit_zero (S := S512x256) zero_offsets]
  obtain ⟨-, -, -, -, e0, e1⟩ := blocks1 t
  funext j
  show k1_pay1 (F := Ideal) (iblk1 V c 0 t) (iblk1 V c 1 t) j
    = Host.dotGeneral (F := Ideal) (φ₁ := .f32) (φ₂ := .f32) Cert.ReferenceIdeal.dot_S10000x512_S512x256_S10000x256_1_0_0_1_n_n none (V c main_v44) (V c main_arg3) (((cfg1.win 2).blk t).view.emb j)
  rw [stored1_apply, whole1_apply]
  have hj0 : ((((cfg1.win 2).blk t).view.emb j) (0 : Fin 2)).val = win1_2.index t (0 : Fin 2) * 2000 + 1 * (j 0).val := rfl
  have hj1 : ((((cfg1.win 2).blk t).view.emb j) (1 : Fin 2)).val = win1_2.index t (1 : Fin 2) * 256 + 1 * (j 1).val := rfl
  refine Finset.sum_congr rfl fun k _ => ?_
  congr 1
  · refine left1_apply V c t _ _ ?_ rfl
    show ((((cfg1.win 2).blk t).view.emb j) (0 : Fin 2)).val = 2000 * t.val + (j 0).val
    rw [hj0, e0]; omega
  · refine right1_apply V c t _ _ rfl ?_
    show ((((cfg1.win 2).blk t).view.emb j) (1 : Fin 2)).val = (j 1).val
    rw [hj1, e1]; omega

/-- An entry of the result array is in point `t`'s block iff each coordinate is in the block's range on its axis. -/
theorem mem_block1 (t : Fin cfg1.N) (i : S10000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- The five row blocks tile the result array: row `ρ` is in block `ρ / 2000`. -/
theorem tiled1 (i : S10000x256.Idx) :
    ∃ t : Fin cfg1.N, (cfg1.win 2).flush t = true ∧ i ∈ ((cfg1.win 2).blk t).view.set := by
  have hi0 : (i 0).val < 10000 := (i 0).isLt
  have hi1 : (i 1).val < 256 := (i 1).isLt
  have hN : cfg1.N = 5 := N_1
  let t : Fin cfg1.N := ⟨(i 0).val / 2000, by rw [hN]; omega⟩
  obtain ⟨-, -, -, -, e0, e1⟩ := blocks1 t
  have ht : t.val = (i 0).val / 2000 := rfl
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 256 ≤ (i 1).val ∧ (i 1).val < win1_2.index t (1 : Fin 2) * 256 + 256; rw [e1]; omega

/-- So the region leaves in its result array the product of its two operand arrays. -/
theorem array1 (c : Dev nD) : (dat1 V c).arrAt 2 cfg1.N = product1 V c :=
  (dat1 V c).arrAt_eq_of_cover 2 (product1 V c) (fun t _ => written1 V c t) (tiled1)

end Cert.KernelIdeal.RegionProduct

end
-- ==== Proof.ReadBack.lean ====
/- The kernel program's result, read back through its run. The host operations of the program build, from the edge list
   alone, the self-looped source and target index vectors and the symmetric normalisation weight of every edge; a layer
   gathers the rows of a product array at the sources, scales each by its edge's weight and adds it into its target's
   row. The program runs a first layer over the product `x · W1`, squares the outcome entrywise, and runs a second layer
   over the product of that square with `W2`. Each product is left by a kernel region, and a region's result array is the
   product of its two operand arrays as a host contraction states it. So, following the buffer contents from the launch
   through the three host stretches before the first region, that region, the stretch between the regions, the second
   region and the last stretch, the result buffer ends at the value the reference's own stages name: the same operations
   applied to the same values, stage by stage (the reference computes the edge weights a second time for its second
   layer: the same operations of the same edge list). -/
import proofs.«113894_j63187558859328_1_alg».proof.Proof.RegionProduct
import Idealize.ShloMosaic.Lib.StableHlo.Run

set_option maxRecDepth 16384

noncomputable section

namespace Cert.KernelIdeal.ReadBack

open Cert.KernelIdeal Cert.KernelIdeal.Gen
open Idealize.ShloMosaic Idealize.ShloMosaic.TcCoe Idealize.SL.Sem Idealize.ShloMosaic.StableHlo

/-! ## At the first region's entry: the edge weights and the index vectors, of the edge list (whatever the float values are) -/

section AnyFloats

variable {F : FTy → Type} [FloatOps F]
variable (m : (ℓ : Loc nD τ sig) → Buf (Elt F) ℓ) (ρ : Dev nD → PrngReg)

set_option maxHeartbeats 4000000 in
theorem entry0_weight (c : Dev nD) :
    W3 m ρ c (Proc.devRef .tc main_v29) = Cert.ReferenceIdeal.ReadP.val_main_v30 (F := F) (m ((c : Thread nD τ).loc main_arg1)) := by
  dsimp only [W3, W2, W1]
  after_results_simp
  rfl

set_option maxHeartbeats 4000000 in
theorem entry0_source (c : Dev nD) :
    W3 m ρ c (Proc.devRef .tc main_v3) = Cert.ReferenceIdeal.ReadP.val_main_v3 (F := F) (m ((c : Thread nD τ).loc main_arg1)) := by
  dsimp only [W3, W2, W1]
  after_results_simp
  rfl

set_option maxHeartbeats 4000000 in
theorem entry0_target (c : Dev nD) :
    W3 m ρ c (Proc.devRef .tc main_v6) = Cert.ReferenceIdeal.ReadP.val_main_v6 (F := F) (m ((c : Thread nD τ).loc main_arg1)) := by
  dsimp only [W3, W2, W1]
  after_results_simp
  rfl

end AnyFloats

variable (m : (ℓ : Loc nD τ sig) → Buf (Elt Ideal) ℓ) (ρ : Dev nD → PrngReg)

/-! ## The arguments reach the first region as launched -/

set_option maxHeartbeats 4000000 in
theorem entry0_x (c : Dev nD) : W3 m ρ c (Proc.devRef .tc main_arg0) = m ((c : Thread nD τ).loc main_arg0) := by
  dsimp only [W3, W2, W1]
  after_results_simp

set_option maxHeartbeats 4000000 in
theorem entry0_w1 (c : Dev nD) : W3 m ρ c (Proc.devRef .tc main_arg2) = m ((c : Thread nD τ).loc main_arg2) := by
  dsimp only [W3, W2, W1]
  after_results_simp

set_option maxHeartbeats 4000000 in
theorem entry0_w2 (c : Dev nD) : W3 m ρ c (Proc.devRef .tc main_arg3) = m ((c : Thread nD τ).loc main_arg3) := by
  dsimp only [W3, W2, W1]
  after_results_simp

/-! ## At the first region's exit: its result array is `x · W1` -/

theorem exit0_product (c : Dev nD) :
    W4 m ρ c (Proc.devRef .tc main_v30) = Cert.ReferenceIdeal.ReadP.val_main_v7 (F := Ideal) (m ((c : Thread nD τ).loc main_arg0)) (m ((c : Thread nD τ).loc main_arg2)) :=
  (W4_arr m ρ c 2).trans ((Cert.KernelIdeal.RegionProduct.array0 (V3 m ρ) c).trans
    (congrArg₂ (Host.dotGeneral (F := Ideal) (φ₁ := .f32) (φ₂ := .f32) Cert.ReferenceIdeal.dot_S10000x512_S512x512_S10000x512_1_0_0_1_n_n none) (entry0_x m ρ c) (entry0_w1 m ρ c)))

/-! ## At the second region's entry: the first layer's outcome squared; the weights, the index vectors and `W2` kept -/

set_option maxHeartbeats 4000000 in
theorem entry1_squared (c : Dev nD) :
    W5 m ρ c (Proc.devRef .tc main_v44) = Cert.ReferenceIdeal.ReadP.val_main_v44 (F := Ideal) (m ((c : Thread nD τ).loc main_arg0)) (m ((c : Thread nD τ).loc main_arg1)) (m ((c : Thread nD τ).loc main_arg2)) := by
  dsimp only [W5]
  after_results
  rw [W4_of_ne m ρ c main_v29 (by decide), W4_of_ne m ρ c main_v3 (by decide), W4_of_ne m ρ c main_v6 (by decide),
    exit0_product, entry0_weight, entry0_source, entry0_target]
  rfl

set_option maxHeartbeats 4000000 in
theorem entry1_weight (c : Dev nD) :
    W5 m ρ c (Proc.devRef .tc main_v29) = Cert.ReferenceIdeal.ReadP.val_main_v30 (F := Ideal) (m ((c : Thread nD τ).loc main_arg1)) := by
  dsimp only [W5]
  after_results_simp
  rw [W4_of_ne m ρ c main_v29 (by decide)]
  exact entry0_weight m ρ c

set_option maxHeartbeats 4000000 in
theorem entry1_source (c : Dev nD) :
    W5 m ρ c (Proc.devRef .tc main_v3) = Cert.ReferenceIdeal.ReadP.val_main_v3 (F := Ideal) (m ((c : Thread nD τ).loc main_arg1)) := by
  dsimp only [W5]
  after_results_simp
  rw [W4_of_ne m ρ c main_v3 (by decide)]
  exact entry0_source m ρ c

set_option maxHeartbeats 4000000 in
theorem entry1_target (c : Dev nD) :
    W5 m ρ c (Proc.devRef .tc main_v6) = Cert.ReferenceIdeal.ReadP.val_main_v6 (F := Ideal) (m ((c : Thread nD τ).loc main_arg1)) := by
  dsimp only [W5]
  after_results_simp
  rw [W4_of_ne m ρ c main_v6 (by decide)]
  exact entry0_target m ρ c

set_option maxHeartbeats 4000000 in
theorem entry1_w2 (c : Dev nD) : W5 m ρ c (Proc.devRef .tc main_arg3) = m ((c : Thread nD τ).loc main_arg3) := by
  dsimp only [W5]
  after_results_simp
  rw [W4_of_ne m ρ c main_arg3 (by decide)]
  exact entry0_w2 m ρ c

/-! ## At the second region's exit: its result array is the squared outcome times `W2` -/

theorem exit1_product (c : Dev nD) :
    W6 m ρ c (Proc.devRef .tc main_v45) = Cert.ReferenceIdeal.ReadP.val_main_v45 (F := Ideal) (m ((c : Thread nD τ).loc main_arg0)) (m ((c : Thread nD τ).loc main_arg1)) (m ((c : Thread nD τ).loc main_arg2)) (m ((c : Thread nD τ).loc main_arg3)) :=
  (W6_arr m ρ c 2).trans ((Cert.KernelIdeal.RegionProduct.array1 (V5 m ρ) c).trans
    (congrArg₂ (Host.dotGeneral (F := Ideal) (φ₁ := .f32) (φ₂ := .f32) Cert.ReferenceIdeal.dot_S10000x512_S512x256_S10000x256_1_0_0_1_n_n none) (entry1_squared m ρ c) (entry1_w2 m ρ c)))

/-! ## After the last stretch: the second layer over that product -/

set_option maxHeartbeats 4000000 in
/-- The program's result buffer ends at the reference's last stage of the four arguments. -/
theorem result (c : Dev nD) :
    W7 m ρ c (Proc.devRef .tc main_v58) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) := by
  dsimp only [W7]
  after_results
  rw [W6_of_ne m ρ c main_v29 (by decide), W6_of_ne m ρ c main_v3 (by decide), W6_of_ne m ρ c main_v6 (by decide),
    exit1_product, entry1_weight, entry1_source, entry1_target]
  rfl

end Cert.KernelIdeal.ReadBack

end
-- ==== Proof.lean ====
/- Equivalence over the extended reals of a two-layer graph convolution whose two dense products run as kernels against
   the same network written with plain matrix products.
   Both programs take node features x [10000, 512], an edge list [2, 160000] and weights W1 [512, 512], W2 [512, 256].
   From the edge list alone both build the source and target vectors with a self-loop per node, the in-degree of every
   node (a scatter-add of ones), its inverse square root where the degree is positive and zero elsewhere, and the weight
   of an edge as the product of that quantity at its two ends. A layer takes an array P, gathers P's rows at the
   sources, scales row e by edge e's weight and scatter-adds it into the target's row. The result is
   layer (square (layer (x · W1)) · W2), the square taken entry by entry.
   The kernel program computes each product five blocks of 2000 rows at a time, each block the matrix product of the
   block's rows with the whole weight array into a zero accumulator, after narrowing both operands' float format; on exact
   values the narrowing is the identity and the block product is the plain sum over the contracted index, so each
   kernel region leaves exactly the product of its two operand arrays (Proof/RegionProduct.lean). Every other operation
   is the same operation of the same values in both programs, so the kernel program's result, read back through its
   run (Proof/ReadBack.lean), is the reference's last stage of the four arguments, which is what the reference's run
   ends at. No finiteness of the inputs is used: nothing is regrouped but the rows of a product into blocks.
   The ideal pass rewrote no operation, so the kernel's idealization is its own text and nothing is owed for it. -/
import proofs.«113894_j63187558859328_1_alg».proof.Defs
import proofs.«113894_j63187558859328_1_alg».proof.Proof.Gen.Kernel
import proofs.«113894_j63187558859328_1_alg».proof.Proof.Gen.Kernel.Frame
import proofs.«113894_j63187558859328_1_alg».proof.Proof.Gen.KernelIdeal
import proofs.«113894_j63187558859328_1_alg».proof.Proof.Gen.KernelIdeal.Frame
import proofs.«113894_j63187558859328_1_alg».proof.Proof.Gen.ReferenceIdeal
import proofs.«113894_j63187558859328_1_alg».proof.Proof.Gen.Pre_finite_inputs
import proofs.«113894_j63187558859328_1_alg».proof.Proof.RefRun
import proofs.«113894_j63187558859328_1_alg».proof.Proof.RefRead
import proofs.«113894_j63187558859328_1_alg».proof.Proof.ResultRun
import proofs.«113894_j63187558859328_1_alg».proof.Proof.ReadBack
import Idealize.ShloMosaic.Adequacy
import Idealize.ShloMosaic.Init

noncomputable section

namespace Cert.Proof

open Idealize.ShloMosaic Idealize.SL.Sem

/-- The word-level kernel program runs to the end without a fault and leaves its arguments as launched. -/
theorem frame_kernel : Cert.frame_Kernel := fun m ρ _ => Cert.Kernel.Gen.frame m ρ

/-- So does the kernel program read at exact values. -/
theorem frame_kernelIdeal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both programs end with the result array at the reference's last stage of the four argument arrays: the kernel
    program's by reading its run back, the reference's by its own run; the arguments agree by hypothesis. -/
theorem algebraic : Cert.algebraic_KernelIdeal_ReferenceIdeal := by
  intro m ρ m' ρ' _ hagree
  refine ⟨fun c => Cert.ReferenceIdeal.ReadP.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.ReadBack.result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v81_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
